-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S262144x64 : Shape := ⟨2, ![262144, 64]⟩
abbrev S64x65 : Shape := ⟨2, ![64, 65]⟩
abbrev S64 : Shape := ⟨1, ![64]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S64x65 : S_.BroadcastsInDim S64x65 (![] : Fin 0 → Fin S64x65.rank)
  reducesTo_S64x65_S_d0_1 : S64x65.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x65 .f32) (main_arg8 : FVec F S64 .f32) (main_v33 : IVec S_ 1) : IVec S_ 1 :=
  let main_v34 : FVec F S64x65 .f32 := Host.absf main_arg7
  let main_cst_12 : FVec F S_ .f32 := constant S_ .f32 0x7F800000#32
  let main_v35 : FVec F S64x65 .f32 := broadcastInDim S64x65 ![] bcast_S_S64x65 main_cst_12
  let main_v36 : IVec S64x65 1 := cmpf .olt main_v34 main_v35
  let main_c_13 : IVec S_ 1 := constantI S_ 1 1#1
  let main_v37 : IVec S_ 1 := (fun x v => Host.reduce IntOp.andi x v reducesTo_S64x65_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x65 .f32) (main_arg6 : FVec F S64 .f32) (main_arg7 : FVec F S64x65 .f32) (main_arg8 : FVec F S64 .f32) (main_v13 : IVec S_ 1) (main_v16 : IVec S64x65 1) : IVec S_ 1 :=
  let main_c_5 : IVec S_ 1 := constantI S_ 1 1#1
  let main_v17 : IVec S_ 1 := (fun x v => Host.reduce IntOp.andi x v reducesTo_S64x65_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x65 .f32 := Host.absf main_arg5
  let main_cst_8 : FVec F S_ .f32 := constant S_ .f32 0x7F800000#32
  let main_v25 : FVec F S64x65 .f32 := broadcastInDim S64x65 ![] bcast_S_S64x65 main_cst_8
  let main_v26 : IVec S64x65 1 := cmpf .olt main_v24 main_v25
  let main_c_9 : IVec S_ 1 := constantI S_ 1 1#1
  let main_v27 : IVec S_ 1 := (fun x v => Host.reduce IntOp.andi x v reducesTo_S64x65_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1 .f32) (main_arg1 : FVec F S262144x64 .f32) (main_arg2 : FVec F S262144x64 .f32) (main_arg3 : FVec F S64x65 .f32) (main_arg4 : FVec F S64 .f32) (main_arg5 : FVec F S64x65 .f32) (main_arg6 : FVec F S64 .f32) (main_arg7 : FVec F S64x65 .f32) (main_arg8 : FVec F S64 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S64x65 .f32 := Host.absf main_arg3
  let main_cst_4 : FVec F S_ .f32 := constant S_ .f32 0x7F800000#32
  let main_v15 : FVec F S64x65 .f32 := broadcastInDim S64x65 ![] bcast_S_S64x65 main_cst_4
  let main_v16 : IVec S64x65 1 := cmpf .olt main_v14 main_v15
  fn_part1 (F := F) main_arg4 main_arg5 main_arg6 main_arg7 main_arg8 main_v13 main_v16
-- ==== Kernel.lean ====
abbrev S1 : Shape := ⟨1, ![1]⟩
abbrev S262144x64 : Shape := ⟨2, ![262144, 64]⟩
abbrev S64x65 : Shape := ⟨2, ![64, 65]⟩
abbrev S64 : Shape := ⟨1, ![64]⟩
abbrev S64x1 : Shape := ⟨2, ![64, 1]⟩
abbrev S64x64 : Shape := ⟨2, ![64, 64]⟩
abbrev S_ : Shape := ⟨0, ![]⟩
abbrev S1x64 : Shape := ⟨2, ![1, 64]⟩
abbrev S262144x1 : Shape := ⟨2, ![262144, 1]⟩
abbrev S4096x64 : Shape := ⟨2, ![4096, 64]⟩
abbrev S4096x1 : Shape := ⟨2, ![4096, 1]⟩
abbrev S4096 : Shape := ⟨1, ![4096]⟩

abbrev nBuf : Space → Nat
  | .hbm => 33
  | .vmem => 14
  | .smem => 0
  | _ => 0

abbrev bufTy : (tb : Table) → Fin (tcTables nBuf tb) → BufTy
  | .hbm, ⟨0, _⟩ => ⟨S1, .f32⟩
  | .hbm, ⟨1, _⟩ => ⟨S262144x64, .f32⟩
  | .hbm, ⟨2, _⟩ => ⟨S262144x64, .f32⟩
  | .hbm, ⟨3, _⟩ => ⟨S64x65, .f32⟩
  | .hbm, ⟨4, _⟩ => ⟨S64, .f32⟩
  | .hbm, ⟨5, _⟩ => ⟨S64x65, .f32⟩
  | .hbm, ⟨6, _⟩ => ⟨S64, .f32⟩
  | .hbm, ⟨7, _⟩ => ⟨S64x65, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x64, .f32⟩
  | .hbm, ⟨12, _⟩ => ⟨S64x1, .f32⟩
  | .hbm, ⟨13, _⟩ => ⟨S64, .f32⟩
  | .hbm, ⟨14, _⟩ => ⟨S64x64, .f32⟩
  | .hbm, ⟨15, _⟩ => ⟨S64x1, .f32⟩
  | .hbm, ⟨16, _⟩ => ⟨S64, .f32⟩
  | .hbm, ⟨17, _⟩ => ⟨S64x64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S1x64, .f32⟩
  | .hbm, ⟨31, _⟩ => ⟨S262144x64, .f32⟩
  | .hbm, ⟨32, _⟩ => ⟨S262144x1, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | .local _ .vmem, ⟨12, _⟩ => ⟨S4096x1, .f32⟩
  | .local _ .vmem, ⟨13, _⟩ => ⟨S4096x1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S64x65_S64x1_0_0 : S64x65.Slices ![0, 0] S64x1
  shapeCasts_S64x1_S64 : S64x1.ShapeCasts S64
  slices_S64x65_S64x64_0_1 : S64x65.Slices ![0, 1] S64x64
  shapeCasts_S1_S_ : S1.ShapeCasts S_
  bcast_S_S64 : S_.BroadcastsInDim S64 (![] : Fin 0 → Fin S64.rank)
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S4096x64 : S1x64.Broadcasts S4096x64
  reduces_S4096x64_S4096 : S4096x64.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .f32 = 32 ∨ (Rect.block (s := S262144x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x64.size a ≤ S262144x64.size a
  hwx0_8 : ∀ i : grid0.Coords, EltTy.bits .f32 = 32 ∨ (Rect.block (s := S262144x64) S4096x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x1.size a ≤ S262144x1.size a
  hwx0_9 : ∀ i : grid0.Coords, EltTy.bits .f32 = 32 ∨ (Rect.block (s := S262144x1) S4096x1.size (cc0_transform_9 i) (hinb0_9 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_0) S4096x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22_1) S4096x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1 : Shape := ⟨1, ![1]⟩
abbrev S262144x64 : Shape := ⟨2, ![262144, 64]⟩
abbrev S64x65 : Shape := ⟨2, ![64, 65]⟩
abbrev S64 : Shape := ⟨1, ![64]⟩
abbrev S1x1 : Shape := ⟨2, ![1, 1]⟩
abbrev S262144x1 : Shape := ⟨2, ![262144, 1]⟩
abbrev S262144x65 : Shape := ⟨2, ![262144, 65]⟩
abbrev S_ : Shape := ⟨0, ![]⟩
abbrev S65x64 : Shape := ⟨2, ![65, 64]⟩
abbrev S1x64 : Shape := ⟨2, ![1, 64]⟩
abbrev S262144 : Shape := ⟨1, ![262144]⟩

abbrev nBuf : Space → Nat
  | .hbm => 71
  | .vmem => 0
  | .smem => 0
  | _ => 0

abbrev bufTy : (tb : Table) → Fin (tcTables nBuf tb) → BufTy
  | .hbm, ⟨0, _⟩ => ⟨S1, .f32⟩
  | .hbm, ⟨1, _⟩ => ⟨S262144x64, .f32⟩
  | .hbm, ⟨2, _⟩ => ⟨S262144x64, .f32⟩
  | .hbm, ⟨3, _⟩ => ⟨S64x65, .f32⟩
  | .hbm, ⟨4, _⟩ => ⟨S64, .f32⟩
  | .hbm, ⟨5, _⟩ => ⟨S64x65, .f32⟩
  | .hbm, ⟨6, _⟩ => ⟨S64, .f32⟩
  | .hbm, ⟨7, _⟩ => ⟨S64x65, .f32⟩
  | .hbm, ⟨8, _⟩ => ⟨S64, .f32⟩
  | .hbm, ⟨9, _⟩ => ⟨S1x1, .f32⟩
  | .hbm, ⟨10, _⟩ => ⟨S262144x1, .f32⟩
  | .hbm, ⟨11, _⟩ => ⟨S262144x65, .f32⟩
  | .hbm, ⟨12, _⟩ => ⟨S_, .f32⟩
  | .hbm, ⟨13, _⟩ => ⟨S262144x1, .f32⟩
  | .hbm, ⟨14, _⟩ => ⟨S65x64, .f32⟩
  | .hbm, ⟨15, _⟩ => ⟨S262144x64, .f32⟩
  | .hbm, ⟨16, _⟩ => ⟨S1x64, .f32⟩
  | .hbm, ⟨17, _⟩ => ⟨S262144x64, .f32⟩
  | .hbm, ⟨18, _⟩ => ⟨S262144x64, .f32⟩
  | .hbm, ⟨19, _⟩ => ⟨S_, .f32⟩
  | .hbm, ⟨20, _⟩ => ⟨S262144x64, .f32⟩
  | .hbm, ⟨21, _⟩ => ⟨S262144x64, .f32⟩
  | .hbm, ⟨22, _⟩ => ⟨S_, .f32⟩
  | .hbm, ⟨23, _⟩ => ⟨S262144x64, .f32⟩
  | .hbm, ⟨24, _⟩ => ⟨S262144x64, .i1⟩
  | .hbm, ⟨25, _⟩ => ⟨S_, .f32⟩
  | .hbm, ⟨26, _⟩ => ⟨S262144x64, .f32⟩
  | .hbm, ⟨27, _⟩ => ⟨S262144x65, .f32⟩
  | .hbm, ⟨28, _⟩ => ⟨S_, .f32⟩
  | .hbm, ⟨29, _⟩ => ⟨S262144x1, .f32⟩
  | .hbm, ⟨30, _⟩ => ⟨S65x64, .f32⟩
  | .hbm, ⟨31, _⟩ => ⟨S262144x64, .f32⟩
  | .hbm, ⟨32, _⟩ => ⟨S1x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S262144x64, .f32⟩
  | .hbm, ⟨40, _⟩ => ⟨S262144x64, .i1⟩
  | .hbm, ⟨41, _⟩ => ⟨S_, .f32⟩
  | .hbm, ⟨42, _⟩ => ⟨S262144x64, .f32⟩
  | .hbm, ⟨43, _⟩ => ⟨S262144x65, .f32⟩
  | .hbm, ⟨44, _⟩ => ⟨S_, .f32⟩
  | .hbm, ⟨45, _⟩ => ⟨S262144x1, .f32⟩
  | .hbm, ⟨46, _⟩ => ⟨S65x64, .f32⟩
  | .hbm, ⟨47, _⟩ => ⟨S262144x64, .f32⟩
  | .hbm, ⟨48, _⟩ => ⟨S1x64, .f32⟩
  | .hbm, ⟨49, _⟩ => ⟨S262144x64, .f32⟩
  | .hbm, ⟨50, _⟩ => ⟨S262144x64, .f32⟩
  | .hbm, ⟨51, _⟩ => ⟨S262144x65, .f32⟩
  | .hbm, ⟨52, _⟩ => ⟨S262144x1, .f32⟩
  | .hbm, ⟨53, _⟩ => ⟨S262144x64, .f32⟩
  | .hbm, ⟨54, _⟩ => ⟨S_, .f32⟩
  | .hbm, ⟨55, _⟩ => ⟨S262144x64, .f32⟩
  | .hbm, ⟨56, _⟩ => ⟨S262144x64, .f32⟩
  | .hbm, ⟨57, _⟩ => ⟨S262144x65, .f32⟩
  | .hbm, ⟨58, _⟩ => ⟨S262144x1, .f32⟩
  | .hbm, ⟨59, _⟩ => ⟨S262144x64, .f32⟩
  | .hbm, ⟨60, _⟩ => ⟨S_, .f32⟩
  | .hbm, ⟨61, _⟩ => ⟨S262144x64, .f32⟩
  | .hbm, ⟨62, _⟩ => ⟨S262144x64, .f32⟩
  | .hbm, ⟨63, _⟩ => ⟨S262144x65, .f32⟩
  | .hbm, ⟨64, _⟩ => ⟨S262144x1, .f32⟩
  | .hbm, ⟨65, _⟩ => ⟨S262144x64, .f32⟩
  | .hbm, ⟨66, _⟩ => ⟨S262144x64, .f32⟩
  | .hbm, ⟨67, _⟩ => ⟨S_, .f32⟩
  | .hbm, ⟨68, _⟩ => ⟨S262144, .f32⟩
  | .hbm, ⟨69, _⟩ => ⟨S262144x1, .f32⟩
  | .hbm, ⟨70, _⟩ => ⟨S262144x1, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_cst : Ref sig .tc := ⟨.hbm, 35, rfl⟩
abbrev main_call1_v0 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  shapeCasts_S1_S1x1 : S1.ShapeCasts S1x1
  bcast_S1x1_S262144x1_0_1 : S1x1.BroadcastsInDim S262144x1 (![0, 1] : Fin 2 → Fin S262144x1.rank)
  concatenates_S262144x1_S262144x64_S262144x65_d1 : Shape.Concatenates [S262144x1, S262144x64] S262144x65 1
  bcast_S_S262144x1 : S_.BroadcastsInDim S262144x1 (![] : Fin 0 → Fin S262144x1.rank)
  transposes_S64x65_S65x64_1_0 : S64x65.Transposes [1, 0] S65x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  slices_S262144x65_S262144x1_0_0 : S262144x65.Slices ![0, 0] S262144x1
  slices_S262144x65_S262144x64_0_1 : S262144x65.Slices ![0, 1] S262144x64
  reducesTo_S262144x64_S262144_d1 : S262144x64.ReducesTo [1] S262144
  h_S_ : 0 < S_.numel
  bcast_S262144_S262144x1_0 : S262144.BroadcastsInDim S262144x1 (![0] : Fin 1 → Fin S262144x1.rank)
  dot_S262144x65_S65x64_S262144x64_1_0_0_1_n_n_wf : DotDims.WF S262144x65 S65x64 S262144x64 [1] [0] [0] [1] [] []
  dot_S262144x64_S65x64_S262144x65_1_1_0_0_n_n_wf : DotDims.WF S262144x64 S65x64 S262144x65 [1] [1] [0] [0] [] []

variable [Facts₀]

def dot_S262144x65_S65x64_S262144x64_1_0_0_1_n_n : DotDims S262144x65 S65x64 S262144x64 where
  lhsContracting := [1]
  rhsContracting := [0]
  lhsNonContracting := [0]
  rhsNonContracting := [1]
  lhsBatch := []
  rhsBatch := []
  wf := dot_S262144x65_S65x64_S262144x64_1_0_0_1_n_n_wf
def dot_S262144x64_S65x64_S262144x65_1_1_0_0_n_n : DotDims S262144x64 S65x64 S262144x65 where
  lhsContracting := [1]
  rhsContracting := [1]
  lhsNonContracting := [0]
  rhsNonContracting := [0]
  lhsBatch := []
  rhsBatch := []
  wf := dot_S262144x64_S65x64_S262144x65_1_1_0_0_n_n_wf

class Facts : Prop extends Facts₀ where

variable [Facts]
-- ==== Proof.MlpRows.lean ====
/-
  The two results as functions of the arguments, on the extended reals, one output row at a time.

  Row `r` of either output depends on row `r` of `z` and of the cotangent `e` only. Write `x` for a row
  of `z`, `e` for the same row of the cotangent, and for layer `k`
      A_k j d = W_k[j, d+1]            (the weight matrix without its time column)
      β_k j   = b_k[j] + t · W_k[j, 0] (the bias with the time column folded in: every row sees the same t).
  Then
      p₁ = A₀ x + β₀,   p₂ = A₁ max(p₁, 0) + β₁,   ż = A₂ max(p₂, 0) + β₂,
      g₂ = [p₂ > 0] · A₂ᵀ e,   g₁ = [p₁ > 0] · A₁ᵀ g₂,   −div = 0 − Σ_d (A₀ᵀ g₁)_d · e_d.
  The first form of a layer, `Σ_d x_d · A j d + β j`, is how a tiled program with the bias precomputed
  writes it; a program that prepends the time column to the row contracts over 65 terms and adds the plain
  bias, `Σ_{k<65} [t, x]_k · W[j, k] + b[j]`. The two are one extended real (`layer_cons`): the sum over
  `Fin 65` is its first term plus the sum of the rest, and addition of extended reals commutes and
  associates at the infinities too, so nothing here needs the inputs finite. Likewise `0 − s = −(0 + s)`
  for every extended real `s` (`zero_sub_eq_neg_zero_add`).
-/
import Idealize.ShloMosaic.PureOps.Ideal
import Idealize.ShloMosaic.Lib.ValueIdx

noncomputable section

namespace Cert.Mlp

open Idealize.ShloMosaic Idealize.ShloMosaic.ValueIdx

/-- One row of activations. -/
abbrev Row := Fin 64 → EReal
/-- A 64 × 64 weight matrix, `A j d`: output feature `j`, input feature `d`. -/
abbrev Mat := Fin 64 → Fin 64 → EReal

/-- An affine layer on a row: `(A x + β)_j = Σ_d x_d · A j d + β_j`. -/
def layer (A : Mat) (β x : Row) : Row := fun j => (∑ d, x d * A j d) + β j

/-- The rectifier, entry by entry. -/
def relu (p : Row) : Row := fun j => max (p j) 0

/-- The rectifier's derivative applied to a cotangent: `g_j` where the pre-activation `p_j` is positive, else `0`. -/
def gate (p g : Row) : Row := fun j => Scalar.select (Ideal.cmp .ogt (p j) 0) (g j) 0

/-- A cotangent pulled back through the linear part of a layer: `(Aᵀ g)_d = Σ_j g_j · A j d`. -/
def pull (A : Mat) (g : Row) : Row := fun d => ∑ j, g j * A j d

/-- The first layer's pre-activation. -/
def pre1 (A0 : Mat) (β0 x : Row) : Row := layer A0 β0 x
/-- The second layer's pre-activation. -/
def pre2 (A0 : Mat) (β0 : Row) (A1 : Mat) (β1 x : Row) : Row := layer A1 β1 (relu (pre1 A0 β0 x))

/-- The network's output on a row: three affine layers with a rectifier after the first two. -/
def zdot (A0 : Mat) (β0 : Row) (A1 : Mat) (β1 : Row) (A2 : Mat) (β2 x : Row) : Row :=
  layer A2 β2 (relu (pre2 A0 β0 A1 β1 x))

/-- The cotangent `e` pulled back to the input through the three layers. -/
def dz (A0 : Mat) (β0 : Row) (A1 : Mat) (β1 : Row) (A2 : Mat) (x e : Row) : Row :=
  pull A0 (gate (pre1 A0 β0 x) (pull A1 (gate (pre2 A0 β0 A1 β1 x) (pull A2 e))))

/-- Minus the contraction of the pulled-back cotangent with `e` itself. -/
def negdiv (A0 : Mat) (β0 : Row) (A1 : Mat) (β1 : Row) (A2 : Mat) (x e : Row) : EReal :=
  0 - ∑ d, dz A0 β0 A1 β1 A2 x e d * e d

/-! ## From the argument arrays -/

/-- The weight without its time column: `A j d = W[j, d+1]`. -/
def hid (W : (⟨2, ![64, 65]⟩ : Shape).Idx → EReal) : Mat := fun j d => W (ix2 j d.succ)

/-- The bias with the time column folded in: `β j = b[j] + t · W[j, 0]`. -/
def effb (t : EReal) (W : (⟨2, ![64, 65]⟩ : Shape).Idx → EReal) (b : (⟨1, ![64]⟩ : Shape).Idx → EReal) : Row :=
  fun j => b (ix1 j) + t * W (ix2 j 0)

/-- Row `r` of a 262144 × 64 array. -/
def rowOf (z : (⟨2, ![262144, 64]⟩ : Shape).Idx → EReal) (r : Fin 262144) : Row := fun d => z (ix2 r d)

/-- The time, the one entry of its array. -/
def time (t : (⟨1, ![1]⟩ : Shape).Idx → EReal) : EReal := t (ix1 0)

/-- The first result, the whole array: entry `(r, j)` is the network's output `j` on row `r` of `z`. -/
def Zdot (t : (⟨1, ![1]⟩ : Shape).Idx → EReal) (z : (⟨2, ![262144, 64]⟩ : Shape).Idx → EReal)
    (W0 : (⟨2, ![64, 65]⟩ : Shape).Idx → EReal) (b0 : (⟨1, ![64]⟩ : Shape).Idx → EReal)
    (W1 : (⟨2, ![64, 65]⟩ : Shape).Idx → EReal) (b1 : (⟨1, ![64]⟩ : Shape).Idx → EReal)
    (W2 : (⟨2, ![64, 65]⟩ : Shape).Idx → EReal) (b2 : (⟨1, ![64]⟩ : Shape).Idx → EReal) :
    (⟨2, ![262144, 64]⟩ : Shape).Idx → EReal := fun i =>
  zdot (hid W0) (effb (time t) W0 b0) (hid W1) (effb (time t) W1 b1) (hid W2) (effb (time t) W2 b2) (rowOf z (i 0)) (i 1)

/-- The second result, the whole array: entry `(r, 0)` is minus the contraction on row `r`. -/
def NegDiv (t : (⟨1, ![1]⟩ : Shape).Idx → EReal) (z e : (⟨2, ![262144, 64]⟩ : Shape).Idx → EReal)
    (W0 : (⟨2, ![64, 65]⟩ : Shape).Idx → EReal) (b0 : (⟨1, ![64]⟩ : Shape).Idx → EReal)
    (W1 : (⟨2, ![64, 65]⟩ : Shape).Idx → EReal) (b1 : (⟨1, ![64]⟩ : Shape).Idx → EReal)
    (W2 : (⟨2, ![64, 65]⟩ : Shape).Idx → EReal) :
    (⟨2, ![262144, 1]⟩ : Shape).Idx → EReal := fun i =>
  negdiv (hid W0) (effb (time t) W0 b0) (hid W1) (effb (time t) W1 b1) (hid W2) (rowOf z (i 0)) (rowOf e (i 0))

/-! ## From the blocks a tiled program holds -/

/-- A 64 × 64 block read as a matrix: `A j d` is its entry `(j, d)`. -/
def matOf (w : (⟨2, ![64, 64]⟩ : Shape).Idx → EReal) : Mat := fun j d => w (ix2 j d)

/-- A 1 × 64 block read as a row. -/
def vecOf (b : (⟨2, ![1, 64]⟩ : Shape).Idx → EReal) : Row := fun j => b (ix2 0 j)

/-- Row `y` of a 4096 × 64 block. -/
def blkRow (x : (⟨2, ![4096, 64]⟩ : Shape).Idx → EReal) (y : Fin 4096) : Row := fun d => x (ix2 y d)

/-! ## The two laws that join the arrangements -/

/-- A layer over the row with the time prepended: the 65-term contraction plus the plain bias is the 64-term
    contraction plus the folded bias. `f k` is the `k`-th product, `f 0 = t · W[j, 0]`. -/
theorem layer_cons (f : Fin 65 → EReal) (b : EReal) :
    (∑ k : Fin 65, f k) + b = (∑ d : Fin 64, f d.succ) + (b + f 0) := by
  rw [Fin.sum_univ_succ, add_comm (f 0), add_assoc, add_comm (f 0) b]

/-- Subtracting from zero is negating a sum that started from zero. -/
theorem zero_sub_eq_neg_zero_add (s : EReal) : 0 - s = -(0 + s) := by
  rw [zero_add, zero_sub]

end Cert.Mlp

end
-- ==== Proof.RefRows.lean ====
/-
  The reference program's two results are the row functions of `MlpRows`.

  The reference runs the same three operations per layer — prepend the time to the row, contract the 65 entries
  against the transposed weight, add the bias — on different operands, so each stage of the second and third layer
  is, as a term, the first layer's stage applied to the previous layer's output. One lemma per kind of stage, stated
  for arbitrary operands at explicit coordinates `(r, j)`, then serves all three layers; the same holds backwards
  for the three pulled-back cotangents.
-/
import proofs.«126394_j31044023616347_1_alg».proof.Proof.Gen.ReferenceIdeal.Read
import proofs.«126394_j31044023616347_1_alg».proof.Proof.MlpRows
import Idealize.ShloMosaic.Lib.Pipeline.Value
import Idealize.ShloMosaic.Lib.ValueIdx
import Idealize.ShloMosaic.PureOps.Ideal.Laws

noncomputable section

namespace Cert.ReferenceIdeal.RefRows

open Cert.ReferenceIdeal Cert.ReferenceIdeal.Gen Cert.ReferenceIdeal.Read
open Idealize.ShloMosaic Idealize.ShloMosaic.TcCoe Idealize.ShloMosaic.ValueIdx

/-! ## The row with the time prepended -/

/-- The broadcast time column holds the time in every row. -/
theorem time_col (x0 : FVec Ideal S1 .f32) (i : S262144x1.Idx) :
    val_main_v1 (F := Ideal) x0 i = Cert.Mlp.time x0 := by
  rw [val_main_v1_apply, val_main_v0_apply]
  exact congrArg x0 (funext fun a => Fin.ext (by match a with | ⟨0, _⟩ => rfl))

/-- Column `0` of the joined row is the time. -/
theorem cat_zero (x0 : FVec Ideal S1 .f32) (y : FVec Ideal S262144x64 .f32) (r : Fin 262144) :
    val_main_v2 (F := Ideal) x0 y (ix2 r (0 : Fin 65)) = Cert.Mlp.time x0 := by
  unfold val_main_v2
  exact (concatenate_pair_apply_left (1 : Fin S262144x65.rank) (val_main_v1 (F := Ideal) x0) y
    concatenates_S262144x1_S262144x64_S262144x65_d1 (ix2 r (0 : Fin 65)) rfl (ix2 r (0 : Fin 1))
    (fun b => by match b with | ⟨0, _⟩ => rfl | ⟨1, _⟩ => rfl)).trans (time_col x0 _)

/-- Column `d + 1` of the joined row is entry `d` of the 64-wide operand's row. -/
theorem cat_succ (x0 : FVec Ideal S1 .f32) (y : FVec Ideal S262144x64 .f32) (r : Fin 262144) (d : Fin 64) :
    val_main_v2 (F := Ideal) x0 y (ix2 r d.succ) = y (ix2 r d) := by
  unfold val_main_v2
  exact concatenate_pair_apply_right (1 : Fin S262144x65.rank) (val_main_v1 (F := Ideal) x0) y
    concatenates_S262144x1_S262144x64_S262144x65_d1 (ix2 r d.succ) rfl rfl (ix2 r d)
    (fun b hb => by
      match b, hb with
      | ⟨0, _⟩, _ => rfl
      | ⟨1, _⟩, hb => exact absurd rfl hb)
    (by show d.val + 1 = d.succ.val; exact (Fin.val_succ d).symm)

/-! ## One layer forwards, for any operands -/

/-- The zero splat the pre-activation is compared with. -/
theorem zero_cmp (i : S262144x64.Idx) : val_main_v10 (F := Ideal) i = (0 : EReal) := by
  rw [val_main_v10_apply, val_main_cst_0_apply]; exact Ideal.ofBits_zero_f32

/-- The zero splat inside the rectifier. -/
theorem zero_relu (i : S262144x64.Idx) : val_main_call0_v0 (F := Ideal) i = (0 : EReal) := by
  rw [val_main_call0_v0_apply, val_main_call0_cst_apply]; exact Ideal.ofBits_zero_f32

/-- The pre-activation at `(r, j)`: the 65-term contraction of the joined row against row `j` of the weight, plus the
    plain bias, is the layer with the time column folded into the bias. -/
theorem pre_at (x0 : FVec Ideal S1 .f32) (y : FVec Ideal S262144x64 .f32) (W : FVec Ideal S64x65 .f32)
    (b : FVec Ideal S64 .f32) (r : Fin 262144) (j : Fin 64) :
    val_main_v8 (F := Ideal) x0 y W b (ix2 r j)
      = Cert.Mlp.layer (Cert.Mlp.hid W) (Cert.Mlp.effb (Cert.Mlp.time x0) W b) (Cert.Mlp.rowOf y r) j := by
  rw [val_main_v8_apply, val_main_v5_apply, val_main_v7_apply, val_main_v6_apply, Ideal.addf_def]
  refine (Cert.Mlp.layer_cons _ _).trans ?_
  have el : ∀ k : Fin 65, lidx_main_v5 (ix2 r j) k = ix2 r k := fun k =>
    funext fun a => Fin.ext (by match a with | ⟨0, _⟩ => rfl | ⟨1, _⟩ => rfl)
  have er : ∀ k : Fin 65, idx_main_v4 (ridx_main_v5 (ix2 r j) k) = ix2 j k := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  refine congrArg₂ (· + ·) (Finset.sum_congr rfl fun d _ => ?_) (congrArg₂ (· + ·) ?_ ?_)
  · rw [el, cat_succ, val_main_v4_apply, er]; rfl
  · rw [eb]
  · rw [el, cat_zero, val_main_v4_apply, er]

/-- The rectified layer's row. -/
theorem relu_row (x0 : FVec Ideal S1 .f32) (y : FVec Ideal S262144x64 .f32) (W : FVec Ideal S64x65 .f32)
    (b : FVec Ideal S64 .f32) (r : Fin 262144) :
    Cert.Mlp.rowOf (val_main_v9 (F := Ideal) x0 y W b) r
      = Cert.Mlp.relu (Cert.Mlp.layer (Cert.Mlp.hid W) (Cert.Mlp.effb (Cert.Mlp.time x0) W b) (Cert.Mlp.rowOf y r)) := by
  funext j
  show val_main_v9 (F := Ideal) x0 y W b (ix2 r j) = _
  rw [val_main_v9_apply, pre_at, zero_relu, Ideal.maximumf_def]
  rfl

/-- The rectifier's mask: the pre-activation compared with zero. -/
theorem mask_at (x0 : FVec Ideal S1 .f32) (y : FVec Ideal S262144x64 .f32) (W : FVec Ideal S64x65 .f32)
    (b : FVec Ideal S64 .f32) (r : Fin 262144) (j : Fin 64) :
    val_main_v11 (F := Ideal) x0 y W b (ix2 r j)
      = Ideal.cmp .ogt (Cert.Mlp.layer (Cert.Mlp.hid W) (Cert.Mlp.effb (Cert.Mlp.time x0) W b) (Cert.Mlp.rowOf y r) j) 0 := by
  rw [val_main_v11_apply, pre_at, zero_cmp, Ideal.cmpf_def]

/-! ## The later layers are the first layer's stages on the previous output -/

section stages
variable (x0 : FVec Ideal S1 .f32) (x1 x2 : FVec Ideal S262144x64 .f32) (x3 : FVec Ideal S64x65 .f32)
  (x4 : FVec Ideal S64 .f32) (x5 : FVec Ideal S64x65 .f32) (x6 : FVec Ideal S64 .f32) (x7 : FVec Ideal S64x65 .f32)
  (x8 : FVec Ideal S64 .f32)

theorem v19_eq : val_main_v19 (F := Ideal) x0 x1 x3 x4 x5 x6
    = val_main_v8 (F := Ideal) x0 (val_main_v9 (F := Ideal) x0 x1 x3 x4) x5 x6 := rfl

theorem v20_eq : val_main_v20 (F := Ideal) x0 x1 x3 x4 x5 x6
    = val_main_v9 (F := Ideal) x0 (val_main_v9 (F := Ideal) x0 x1 x3 x4) x5 x6 := rfl

theorem v22_eq : val_main_v22 (F := Ideal) x0 x1 x3 x4 x5 x6
    = val_main_v11 (F := Ideal) x0 (val_main_v9 (F := Ideal) x0 x1 x3 x4) x5 x6 := rfl

theorem v30_eq : val_main_v30 (F := Ideal) x0 x1 x3 x4 x5 x6 x7 x8
    = val_main_v8 (F := Ideal) x0 (val_main_v20 (F := Ideal) x0 x1 x3 x4 x5 x6) x7 x8 := rfl

theorem v38_eq : val_main_v38 (F := Ideal) x0 x1 x2 x3 x4 x5 x6 x7
    = val_main_v33 (F := Ideal) (val_main_v35 (F := Ideal) x0 x1 x2 x3 x4 x5 x6 x7) x5 := rfl

theorem v43_eq : val_main_v43 (F := Ideal) x0 x1 x2 x3 x4 x5 x6 x7
    = val_main_v33 (F := Ideal) (val_main_v40 (F := Ideal) x0 x1 x2 x3 x4 x5 x6 x7) x3 := rfl

end stages

/-! ## Forwards -/

section forward
variable (x0 : FVec Ideal S1 .f32) (x1 : FVec Ideal S262144x64 .f32) (x3 : FVec Ideal S64x65 .f32)
  (x4 : FVec Ideal S64 .f32) (x5 : FVec Ideal S64x65 .f32) (x6 : FVec Ideal S64 .f32) (x7 : FVec Ideal S64x65 .f32)
  (x8 : FVec Ideal S64 .f32) (r : Fin 262144)

/-- The second layer's pre-activation. -/
theorem pre2_at (j : Fin 64) :
    val_main_v19 (F := Ideal) x0 x1 x3 x4 x5 x6 (ix2 r j)
      = Cert.Mlp.pre2 (Cert.Mlp.hid x3) (Cert.Mlp.effb (Cert.Mlp.time x0) x3 x4) (Cert.Mlp.hid x5)
          (Cert.Mlp.effb (Cert.Mlp.time x0) x5 x6) (Cert.Mlp.rowOf x1 r) j := by
  rw [v19_eq, pre_at, relu_row]
  rfl

/-- The second hidden row. -/
theorem hid2_row :
    Cert.Mlp.rowOf (val_main_v20 (F := Ideal) x0 x1 x3 x4 x5 x6) r
      = Cert.Mlp.relu (Cert.Mlp.pre2 (Cert.Mlp.hid x3) (Cert.Mlp.effb (Cert.Mlp.time x0) x3 x4) (Cert.Mlp.hid x5)
          (Cert.Mlp.effb (Cert.Mlp.time x0) x5 x6) (Cert.Mlp.rowOf x1 r)) := by
  rw [v20_eq, relu_row, relu_row]
  rfl

/-- The network's output at `(r, j)`. -/
theorem zdot_at (j : Fin 64) :
    val_main_v30 (F := Ideal) x0 x1 x3 x4 x5 x6 x7 x8 (ix2 r j)
      = Cert.Mlp.zdot (Cert.Mlp.hid x3) (Cert.Mlp.effb (Cert.Mlp.time x0) x3 x4) (Cert.Mlp.hid x5)
          (Cert.Mlp.effb (Cert.Mlp.time x0) x5 x6) (Cert.Mlp.hid x7) (Cert.Mlp.effb (Cert.Mlp.time x0) x7 x8)
          (Cert.Mlp.rowOf x1 r) j := by
  rw [v30_eq, pre_at, hid2_row]
  rfl

end forward

/-! ## Backwards -/

/-- The zero splats the two selects fall back to. -/
theorem zero_sel2 (i : S262144x64.Idx) : val_main_v34 (F := Ideal) i = (0 : EReal) := by
  rw [val_main_v34_apply, val_main_cst_6_apply]; exact Ideal.ofBits_zero_f32
theorem zero_sel1 (i : S262144x64.Idx) : val_main_v39 (F := Ideal) i = (0 : EReal) := by
  rw [val_main_v39_apply, val_main_cst_7_apply]; exact Ideal.ofBits_zero_f32

/-- A cotangent contracted against the transposed weight over its 64 outputs, then cut to columns `1 … 64`: column
    `d` of the cut is column `d + 1` of the product, the pull-back through the weight without its time column. -/
theorem pull_at (g : FVec Ideal S262144x64 .f32) (W : FVec Ideal S64x65 .f32) (r : Fin 262144) (d : Fin 64) :
    val_main_v33 (F := Ideal) g W (ix2 r d) = Cert.Mlp.pull (Cert.Mlp.hid W) (Cert.Mlp.rowOf g r) d := by
  rw [val_main_v33_apply, val_main_v31_apply]
  show _ = ∑ k : Fin 64, g (ix2 r k) * W (ix2 k d.succ)
  refine Finset.sum_congr rfl fun k _ => ?_
  rw [val_main_v26_apply]
  refine congrArg₂ (· * ·) (congrArg g ?_) (congrArg W ?_)
  · exact funext fun a => Fin.ext (by match a with | ⟨0, _⟩ => rfl | ⟨1, _⟩ => rfl)
  · exact funext fun a => Fin.ext (by
      match a with
      | ⟨0, _⟩ => rfl
      | ⟨1, _⟩ => show 1 + d.val = d.succ.val; rw [Fin.val_succ]; omega)

section backward
variable (x0 : FVec Ideal S1 .f32) (x1 x2 : FVec Ideal S262144x64 .f32) (x3 : FVec Ideal S64x65 .f32)
  (x4 : FVec Ideal S64 .f32) (x5 : FVec Ideal S64x65 .f32) (x6 : FVec Ideal S64 .f32) (x7 : FVec Ideal S64x65 .f32)
  (r : Fin 262144)

/-- The cotangent at the second pre-activation. -/
theorem g2_row :
    Cert.Mlp.rowOf (val_main_v35 (F := Ideal) x0 x1 x2 x3 x4 x5 x6 x7) r
      = Cert.Mlp.gate (Cert.Mlp.pre2 (Cert.Mlp.hid x3) (Cert.Mlp.effb (Cert.Mlp.time x0) x3 x4) (Cert.Mlp.hid x5)
          (Cert.Mlp.effb (Cert.Mlp.time x0) x5 x6) (Cert.Mlp.rowOf x1 r))
          (Cert.Mlp.pull (Cert.Mlp.hid x7) (Cert.Mlp.rowOf x2 r)) := by
  funext j
  show val_main_v35 (F := Ideal) x0 x1 x2 x3 x4 x5 x6 x7 (ix2 r j) = _
  rw [val_main_v35_apply, v22_eq, mask_at, relu_row, pull_at, zero_sel2]
  rfl

/-- The cotangent at the first pre-activation. -/
theorem g1_row :
    Cert.Mlp.rowOf (val_main_v40 (F := Ideal) x0 x1 x2 x3 x4 x5 x6 x7) r
      = Cert.Mlp.gate (Cert.Mlp.pre1 (Cert.Mlp.hid x3) (Cert.Mlp.effb (Cert.Mlp.time x0) x3 x4) (Cert.Mlp.rowOf x1 r))
          (Cert.Mlp.pull (Cert.Mlp.hid x5)
            (Cert.Mlp.gate (Cert.Mlp.pre2 (Cert.Mlp.hid x3) (Cert.Mlp.effb (Cert.Mlp.time x0) x3 x4) (Cert.Mlp.hid x5)
              (Cert.Mlp.effb (Cert.Mlp.time x0) x5 x6) (Cert.Mlp.rowOf x1 r))
              (Cert.Mlp.pull (Cert.Mlp.hid x7) (Cert.Mlp.rowOf x2 r)))) := by
  funext j
  show val_main_v40 (F := Ideal) x0 x1 x2 x3 x4 x5 x6 x7 (ix2 r j) = _
  rw [val_main_v40_apply, mask_at, v38_eq, pull_at, g2_row, zero_sel1]
  rfl

/-- The cotangent pulled back to the input. -/
theorem dz_at (d : Fin 64) :
    val_main_v43 (F := Ideal) x0 x1 x2 x3 x4 x5 x6 x7 (ix2 r d)
      = Cert.Mlp.dz (Cert.Mlp.hid x3) (Cert.Mlp.effb (Cert.Mlp.time x0) x3 x4) (Cert.Mlp.hid x5)
          (Cert.Mlp.effb (Cert.Mlp.time x0) x5 x6) (Cert.Mlp.hid x7) (Cert.Mlp.rowOf x1 r) (Cert.Mlp.rowOf x2 r) d := by
  rw [v43_eq, pull_at, g1_row]
  rfl

/-- Minus the contraction at row `r`: the reduction starts from zero and its result is negated. -/
theorem negdiv_at (c : Fin 1) :
    val_main_v47 (F := Ideal) x0 x1 x2 x3 x4 x5 x6 x7 (ix2 r c)
      = Cert.Mlp.negdiv (Cert.Mlp.hid x3) (Cert.Mlp.effb (Cert.Mlp.time x0) x3 x4) (Cert.Mlp.hid x5)
          (Cert.Mlp.effb (Cert.Mlp.time x0) x5 x6) (Cert.Mlp.hid x7) (Cert.Mlp.rowOf x1 r) (Cert.Mlp.rowOf x2 r) := by
  rw [val_main_v47_apply, val_main_v46_apply, val_main_v45_apply, val_main_cst_8_apply, Ideal.hostNegf_def,
    Ideal.negf_def, Ideal.ofBits_def, Ideal.ofBits_zero_f32, ← Cert.Mlp.zero_sub_eq_neg_zero_add]
  refine congrArg (fun s : EReal => 0 - s) (Finset.sum_congr rfl fun k _ => ?_)
  have e : idx_main_v45 (idx_main_v46 (ix2 r c)) k = ix2 r k :=
    funext fun a => Fin.ext (by match a with | ⟨0, _⟩ => rfl | ⟨1, _⟩ => rfl)
  rw [val_main_v44_apply, Ideal.mulf_def, e, dz_at]
  rfl

end backward

/-! ## The two results -/

/-- The reference's first result is the network's output, row by row. -/
theorem zdot_eq (x0 : FVec Ideal S1 .f32) (x1 : FVec Ideal S262144x64 .f32) (x3 : FVec Ideal S64x65 .f32)
    (x4 : FVec Ideal S64 .f32) (x5 : FVec Ideal S64x65 .f32) (x6 : FVec Ideal S64 .f32) (x7 : FVec Ideal S64x65 .f32)
    (x8 : FVec Ideal S64 .f32) :
    val_main_v30 (F := Ideal) x0 x1 x3 x4 x5 x6 x7 x8 = Cert.Mlp.Zdot x0 x1 x3 x4 x5 x6 x7 x8 := by
  funext i
  obtain ⟨r, j, rfl⟩ : ∃ (r : Fin 262144) (j : Fin 64), i = ix2 r j := ⟨i 0, i 1, eq_ix2 i⟩
  exact zdot_at x0 x1 x3 x4 x5 x6 x7 x8 r j

/-- The reference's second result is minus the contraction, row by row. -/
theorem negdiv_eq (x0 : FVec Ideal S1 .f32) (x1 x2 : FVec Ideal S262144x64 .f32) (x3 : FVec Ideal S64x65 .f32)
    (x4 : FVec Ideal S64 .f32) (x5 : FVec Ideal S64x65 .f32) (x6 : FVec Ideal S64 .f32) (x7 : FVec Ideal S64x65 .f32) :
    val_main_v47 (F := Ideal) x0 x1 x2 x3 x4 x5 x6 x7 = Cert.Mlp.NegDiv x0 x1 x2 x3 x4 x5 x6 x7 := by
  funext i
  obtain ⟨r, c, rfl⟩ : ∃ (r : Fin 262144) (c : Fin 1), i = ix2 r c := ⟨i 0, i 1, eq_ix2 i⟩
  exact negdiv_at x0 x1 x2 x3 x4 x5 x6 x7 r c

end Cert.ReferenceIdeal.RefRows

end
-- ==== Proof.KernelRows.lean ====
/-
  The kernel body's two stored values, read at an entry of the block, are the row functions of `MlpRows`
  of the blocks the body loads.
-/
import proofs.«126394_j31044023616347_1_alg».proof.Proof.Gen.KernelIdeal.Skeleton
import proofs.«126394_j31044023616347_1_alg».proof.Proof.MlpRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen
open Idealize.ShloMosaic Idealize.ShloMosaic.TcCoe Idealize.ShloMosaic.ValueIdx

/-! ## The one contraction

Every product of the body contracts axis 1 of a 4096 × 64 left operand with axis 0 of a 64 × 64 right operand, into
the zero splat. At output entry `(y, j)` and contraction coordinate `k` the operands are read at `(y, k)` and `(k, j)`. -/

/-- The left operand's kept axis carries the output's row. -/
theorem lhs_axis0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
/-- The left operand's contracted axis carries the contraction coordinate. -/
theorem lhs_axis1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
/-- The right operand's contracted axis carries the contraction coordinate. -/
theorem rhs_axis0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
/-- The right operand's kept axis carries the output's column. -/
theorem rhs_axis1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A product into the zero splat, at entry `(y, j)`: the sum over `k` of left `(y, k)` times right `(k, j)`. -/
theorem matmul_at {φ₁ φ₂ : FTy} (lhs : FVec Ideal S4096x64 φ₁) (rhs : FVec Ideal S64x64 φ₂) (y : Fin 4096) (j : Fin 64) :
    matmul dot_S4096x64_S64x64_S4096x64_1_0_0_1_n_n none lhs rhs (constant (F := Ideal) S4096x64 .f32 0x00000000#32) (ix2 y j)
      = ∑ k : Fin 64, lhs (ix2 y k) * rhs (ix2 k j) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 y j) ((ValueIdx.contrEquiv1 dot_S4096x64_S64x64_S4096x64_1_0_0_1_n_n 64 rfl rfl).symm k) = ix2 y k := funext fun a => Fin.ext (by
    match a with
    | ⟨0, _⟩ => exact lhs_axis0 _ _
    | ⟨1, _⟩ => exact (lhs_axis1 _ _).trans hk)
  have er : dot_S4096x64_S64x64_S4096x64_1_0_0_1_n_n.rhsIdx (ix2 y j) ((ValueIdx.contrEquiv1 dot_S4096x64_S64x64_S4096x64_1_0_0_1_n_n 64 rfl rfl).symm k) = ix2 k j := funext fun a => Fin.ext (by
    match a with
    | ⟨0, _⟩ => exact (rhs_axis0 _ _).trans hk
    | ⟨1, _⟩ => exact rhs_axis1 _ _)
  rw [el, er]

/-! ## A forward layer and a backward pull, over any left operand -/

/-- A forward layer of the body: the left operand times the transposed weight block, plus the bias block's one row,
    at entry `(y, j)`, is the affine layer of the left operand's row `y`. -/
theorem fwd_at {φ₁ : FTy} (lhs : FVec Ideal S4096x64 φ₁) (w : Vec Ideal S64x64 .f32) (b : Vec Ideal S1x64 .f32)
    (y : Fin 4096) (j : Fin 64) :
    addf (matmul dot_S4096x64_S64x64_S4096x64_1_0_0_1_n_n none lhs
            (transpose S64x64 [1, 0] (truncf .bf16 (shapeCast S64x64 w shapeCasts_S64x64_S64x64) bitsLt_bf16_f32) transposes_S64x64_p1_0_S64x64)
            (constant (F := Ideal) S4096x64 .f32 0x00000000#32))
         (broadcastTo S4096x64 (shapeCast S1x64 b shapeCasts_S1x64_S1x64) broadcasts_S1x64_S4096x64) (ix2 y j)
      = Cert.Mlp.layer (Cert.Mlp.matOf w) (Cert.Mlp.vecOf b) (fun d => lhs (ix2 y d)) j := by
  rw [addf_apply, matmul_at, shapeCast_self, shapeCast_self]
  unfold Cert.Mlp.layer Cert.Mlp.matOf Cert.Mlp.vecOf
  refine congrArg₂ (· + ·) (Finset.sum_congr rfl fun k _ => ?_) ?_
  · exact congrArg (lhs (ix2 y k) * ·) (transpose_ix2_apply _ transposes_S64x64_p1_0_S64x64 k j)
  · exact broadcastTo_1b_ab_apply b broadcasts_S1x64_S4096x64 y j

/-- A backward pull of the body: the left operand times the weight block itself, at entry `(y, d)`, is the left
    operand's row `y` pulled back through the weight. -/
theorem bwd_at {φ₁ : FTy} (g : FVec Ideal S4096x64 φ₁) (w : Vec Ideal S64x64 .f32) (y : Fin 4096) (d : Fin 64) :
    matmul dot_S4096x64_S64x64_S4096x64_1_0_0_1_n_n none g (truncf .bf16 (shapeCast S64x64 w shapeCasts_S64x64_S64x64) bitsLt_bf16_f32)
        (constant (F := Ideal) S4096x64 .f32 0x00000000#32) (ix2 y d)
      = Cert.Mlp.pull (Cert.Mlp.matOf w) (fun j => g (ix2 y j)) d := by
  rw [matmul_at, shapeCast_self]
  rfl

/-! ## The rectifier and its mask at an entry -/

/-- The rectified value at an entry: the maximum with zero. -/
theorem relu_at (p : FVec Ideal S4096x64 .f32) (i : S4096x64.Idx) :
    truncf .bf16 (maximumf p (broadcast S4096x64 (Scalar.ofBits (F := Ideal) .f32 0x00000000#32))) bitsLt_bf16_f32 i = max (p i) 0 := by
  show max (p i) (Ideal.ofBits .f32 0x00000000#32) = _
  rw [Ideal.ofBits_zero_f32]

/-- The mask at an entry: the comparison of the entry with zero. -/
theorem mask_at (p : FVec Ideal S4096x64 .f32) (i : S4096x64.Idx) :
    cmpf .ogt p (broadcast S4096x64 (Scalar.ofBits (F := Ideal) .f32 0x00000000#32)) i = Ideal.cmp .ogt (p i) 0 := by
  show Ideal.cmp .ogt (p i) (Ideal.ofBits .f32 0x00000000#32) = _
  rw [Ideal.ofBits_zero_f32]

/-- A masked cotangent at an entry: the cotangent where the mask's pre-activation is positive, else zero. -/
theorem gate_at (m : IVec S4096x64 1) (g : FVec Ideal S4096x64 .f32) (i : S4096x64.Idx) :
    truncf .bf16 (select m g (broadcast S4096x64 (Scalar.ofBits (F := Ideal) .f32 0x00000000#32))) bitsLt_bf16_f32 i = Scalar.select (m i) (g i) 0 := by
  show Scalar.select (m i) (g i) (Ideal.ofBits .f32 0x00000000#32) = _
  rw [Ideal.ofBits_zero_f32]

/-! ## The pre-activations and their masks -/

/-- The first layer's pre-activation block at `(y, j)`. -/
theorem pay7_at (v0 : Vec Ideal S4096x64 .f32) (v2 : Vec Ideal S64x64 .f32) (v11 : Vec Ideal S1x64 .f32)
    (y : Fin 4096) (j : Fin 64) :
    k0_pay7 (F := Ideal) v0 v2 v11 (ix2 y j)
      = Cert.Mlp.pre1 (Cert.Mlp.matOf v2) (Cert.Mlp.vecOf v11) (Cert.Mlp.blkRow v0 y) j := by
  unfold k0_pay7 k0_pay3
  exact fwd_at (truncf .bf16 v0 bitsLt_bf16_f32) v2 v11 y j

/-- The second layer's pre-activation block at `(y, j)`. -/
theorem pay9_at (v0 : Vec Ideal S4096x64 .f32) (v2 v5 : Vec Ideal S64x64 .f32) (v11 v13 : Vec Ideal S1x64 .f32)
    (y : Fin 4096) (j : Fin 64) :
    k0_pay9 (F := Ideal) v0 v2 v5 v11 v13 (ix2 y j)
      = Cert.Mlp.pre2 (Cert.Mlp.matOf v2) (Cert.Mlp.vecOf v11) (Cert.Mlp.matOf v5) (Cert.Mlp.vecOf v13) (Cert.Mlp.blkRow v0 y) j := by
  unfold k0_pay9 k0_pay4
  refine (fwd_at (truncf .bf16 (maximumf (k0_pay7 (F := Ideal) v0 v2 v11) (broadcast S4096x64 (Scalar.ofBits (F := Ideal) .f32 0x00000000#32))) bitsLt_bf16_f32) v5 v13 y j).trans ?_
  unfold Cert.Mlp.pre2
  refine congrArg (fun r => Cert.Mlp.layer (Cert.Mlp.matOf v5) (Cert.Mlp.vecOf v13) r j) (funext fun d => ?_)
  rw [relu_at, pay7_at]
  rfl

/-- The first mask at `(y, j)`: is the first pre-activation positive. -/
theorem pay8_at (v0 : Vec Ideal S4096x64 .f32) (v2 : Vec Ideal S64x64 .f32) (v11 : Vec Ideal S1x64 .f32)
    (y : Fin 4096) (j : Fin 64) :
    k0_pay8 (F := Ideal) v0 v2 v11 (ix2 y j)
      = Ideal.cmp .ogt (Cert.Mlp.pre1 (Cert.Mlp.matOf v2) (Cert.Mlp.vecOf v11) (Cert.Mlp.blkRow v0 y) j) 0 := by
  unfold k0_pay8
  refine (mask_at (k0_pay7 (F := Ideal) v0 v2 v11) (ix2 y j)).trans ?_
  rw [pay7_at]

/-- The second mask at `(y, j)`: is the second pre-activation positive. -/
theorem pay10_at (v0 : Vec Ideal S4096x64 .f32) (v2 v5 : Vec Ideal S64x64 .f32) (v11 v13 : Vec Ideal S1x64 .f32)
    (y : Fin 4096) (j : Fin 64) :
    k0_pay10 (F := Ideal) v0 v2 v5 v11 v13 (ix2 y j)
      = Ideal.cmp .ogt (Cert.Mlp.pre2 (Cert.Mlp.matOf v2) (Cert.Mlp.vecOf v11) (Cert.Mlp.matOf v5) (Cert.Mlp.vecOf v13) (Cert.Mlp.blkRow v0 y) j) 0 := by
  unfold k0_pay10
  refine (mask_at (k0_pay9 (F := Ideal) v0 v2 v5 v11 v13) (ix2 y j)).trans ?_
  rw [pay9_at]

/-! ## The first stored value -/

/-- The value stored to the first output block, at row `y` and feature `j`: the network's output on row `y` of
    the `z` block, with the three weight blocks and the three folded-bias blocks as loaded. -/
theorem pay_zdot (v0 : Vec Ideal S4096x64 .f32) (v2 v5 v8 : Vec Ideal S64x64 .f32) (v11 v13 v15 : Vec Ideal S1x64 .f32)
    (y : Fin 4096) (j : Fin 64) :
    k0_pay1 (F := Ideal) (k0_pay6 v15) (k0_pay11 v0 v2 v5 v11 v13) (k0_pay12 v8) (ix2 y j)
      = Cert.Mlp.zdot (Cert.Mlp.matOf v2) (Cert.Mlp.vecOf v11) (Cert.Mlp.matOf v5) (Cert.Mlp.vecOf v13)
          (Cert.Mlp.matOf v8) (Cert.Mlp.vecOf v15) (Cert.Mlp.blkRow v0 y) j := by
  unfold k0_pay1 k0_pay6 k0_pay11 k0_pay12 k0_pay5
  refine (fwd_at (truncf .bf16 (maximumf (k0_pay9 (F := Ideal) v0 v2 v5 v11 v13) (broadcast S4096x64 (Scalar.ofBits (F := Ideal) .f32 0x00000000#32))) bitsLt_bf16_f32) v8 v15 y j).trans ?_
  unfold Cert.Mlp.zdot
  refine congrArg (fun r => Cert.Mlp.layer (Cert.Mlp.matOf v8) (Cert.Mlp.vecOf v15) r j) (funext fun d => ?_)
  rw [relu_at, pay9_at]
  rfl

/-! ## The second stored value -/

/-- A masked cotangent, a whole row of it: the gate of the cotangent's row by the pre-activation row the mask compares. -/
theorem gate_row (m : IVec S4096x64 1) (g : FVec Ideal S4096x64 .f32) (p : Cert.Mlp.Row) (y : Fin 4096)
    (hm : ∀ j : Fin 64, m (ix2 y j) = Ideal.cmp .ogt (p j) 0) :
    (fun j : Fin 64 => truncf .bf16 (select m g (broadcast S4096x64 (Scalar.ofBits (F := Ideal) .f32 0x00000000#32))) bitsLt_bf16_f32 (ix2 y j))
      = Cert.Mlp.gate p (fun j => g (ix2 y j)) := by
  funext j
  rw [gate_at, hm]
  rfl

/-- A backward pull, a whole row of it. -/
theorem bwd_row {φ₁ : FTy} (g : FVec Ideal S4096x64 φ₁) (w : Vec Ideal S64x64 .f32) (y : Fin 4096) :
    (fun d : Fin 64 => matmul dot_S4096x64_S64x64_S4096x64_1_0_0_1_n_n none g (truncf .bf16 (shapeCast S64x64 w shapeCasts_S64x64_S64x64) bitsLt_bf16_f32)
        (constant (F := Ideal) S4096x64 .f32 0x00000000#32) (ix2 y d))
      = Cert.Mlp.pull (Cert.Mlp.matOf w) (fun j => g (ix2 y j)) :=
  funext fun d => bwd_at g w y d

/-- The lane sum of a 4096 × 64 block, at row `y`: the sum over the 64 lanes of that row. -/
theorem rowsum_at (src : FVec Ideal S4096x64 .f32) (y : Fin 4096) :
    multiReduction (F := Ideal) .add [1] S4096 src 0x00000000#32 reduces_S4096x64_S4096 (.inl rfl) rfl (ix1 y)
      = ∑ k : Fin 64, src (ix2 y k) := by
  refine (Ideal.multiReduction_add_single src 0x00000000#32 reduces_S4096x64_S4096 (.inl rfl) rfl (ix1 y)).trans ?_
  show ∑ k : Fin 64, src (reduces_S4096x64_S4096.lift (ix1 y) k) = _
  refine Finset.sum_congr rfl fun k _ => congrArg src (funext fun a => Fin.ext ?_)
  match a with
  | ⟨0, _⟩ => rfl
  | ⟨1, _⟩ => rfl

/-- A length-4096 vector viewed as a 4096 × 1 column reads, at `(y, 0)`, its entry `y`. -/
theorem col_at (s : FVec Ideal S4096 .f32) (y : Fin 4096) :
    shapeCast S4096x1 s shapeCasts_S4096_S4096x1 (ix2 y (0 : Fin 1)) = s (ix1 y) :=
  shapeCast_apply s shapeCasts_S4096_S4096x1 (ix2 y (0 : Fin 1)) (ix1 y) (by
    rw [Shape.rowMajor_val_one, Shape.rowMajor_val_two]
    show y.val = y.val * 1 + 0
    omega)

/-- The end of the second value: zero minus the lane sum of a product of two blocks, at `(y, 0)`. -/
theorem tail_at (c e : FVec Ideal S4096x64 .f32) (y : Fin 4096) :
    subf (broadcast S4096x1 (Scalar.ofBits (F := Ideal) .f32 0x00000000#32))
        (shapeCast S4096x1 (multiReduction (F := Ideal) .add [1] S4096 (mulf c e) 0x00000000#32 reduces_S4096x64_S4096 (.inl rfl) rfl)
          shapeCasts_S4096_S4096x1) (ix2 y (0 : Fin 1))
      = 0 - ∑ d : Fin 64, c (ix2 y d) * e (ix2 y d) := by
  rw [subf_apply, col_at, rowsum_at]
  show Ideal.ofBits .f32 0x00000000#32 - _ = _
  rw [Ideal.ofBits_zero_f32]
  rfl

/-- The value stored to the second output block, at row `y`: minus the contraction on row `y` of the `z` and
    cotangent blocks. -/
theorem pay_negdiv (v0 v1 : Vec Ideal S4096x64 .f32) (v2 v5 v8 : Vec Ideal S64x64 .f32) (v11 v13 : Vec Ideal S1x64 .f32)
    (y : Fin 4096) :
    k0_pay2 (F := Ideal) v1 (k0_pay3 v2) (k0_pay4 v5) (k0_pay5 v8) (k0_pay8 v0 v2 v11) (k0_pay10 v0 v2 v5 v11 v13) (ix2 y 0)
      = Cert.Mlp.negdiv (Cert.Mlp.matOf v2) (Cert.Mlp.vecOf v11) (Cert.Mlp.matOf v5) (Cert.Mlp.vecOf v13)
          (Cert.Mlp.matOf v8) (Cert.Mlp.blkRow v0 y) (Cert.Mlp.blkRow v1 y) := by
  unfold k0_pay2 k0_pay3 k0_pay4 k0_pay5
  refine (tail_at _ v1 y).trans ?_
  unfold Cert.Mlp.negdiv Cert.Mlp.dz
  refine congrArg (fun c : Cert.Mlp.Row => (0 : EReal) - ∑ d, c d * Cert.Mlp.blkRow v1 y d) ?_
  refine (bwd_row _ v2 y).trans ?_
  refine congrArg (Cert.Mlp.pull (Cert.Mlp.matOf v2)) ?_
  refine (gate_row _ _ _ y (fun j => pay8_at v0 v2 v11 y j)).trans ?_
  refine congrArg (Cert.Mlp.gate _) ?_
  refine (bwd_row _ v5 y).trans ?_
  refine congrArg (Cert.Mlp.pull (Cert.Mlp.matOf v5)) ?_
  refine (gate_row _ _ _ y (fun j => pay10_at v0 v2 v5 v11 v13 y j)).trans ?_
  refine congrArg (Cert.Mlp.gate _) ?_
  exact bwd_row (truncf .bf16 v1 bitsLt_bf16_f32) v8 y

end Cert.KernelIdeal.Rows

end
-- ==== Proof.HostWin.lean ====
/-
  What the kernel region finds in the six small operands the program computes before it: the three weight
  matrices without their time column, and the three biases with the time column folded in.

  The program slices columns 1..64 of each 64 × 65 weight `W` into a 64 × 64 array: entry `(j, d)` of it is
  `W[j, d+1]`. It slices column 0, multiplies it by the time broadcast to 64 entries, adds the bias and lays the
  result out as one row of 64: entry `(0, j)` of that is `b[j] + t · W[j, 0]`. Each of those arrays is staged
  whole (its one block is the array), so the block the body loads is the array itself.
-/
import proofs.«126394_j31044023616347_1_alg».proof.Proof.Gen.KernelIdeal.Frame
import proofs.«126394_j31044023616347_1_alg».proof.Proof.MlpRows
import Idealize.ShloMosaic.Lib.Pipeline.Value
import Idealize.ShloMosaic.Lib.ValueIdx
import Idealize.ShloMosaic.Lib.StableHlo.Run

noncomputable section

namespace Cert.KernelIdeal.HostWin

open Cert.KernelIdeal Cert.KernelIdeal.Gen
open Idealize.ShloMosaic Idealize.ShloMosaic.TcCoe Idealize.SL.Sem Idealize.ShloMosaic.StableHlo Idealize.ShloMosaic.ValueIdx

/-! ## The two layouts, over any arrays -/

/-- Columns 1..64 of a weight, read as a matrix, are the weight without its time column. -/
theorem matOf_slice (W : FVec Ideal S64x65 .f32) :
    Cert.Mlp.matOf (extractStridedSlice S64x64 ![0, 1] W slices_S64x65_S64x64_0_1) = Cert.Mlp.hid W := by
  funext j d
  show extractStridedSlice S64x64 ![0, 1] W slices_S64x65_S64x64_0_1 (ix2 j d) = W (ix2 j d.succ)
  exact extractStridedSlice_apply _ W _ (ix2 j d) (ix2 j d.succ) (fun a => by
    match a with
    | ⟨0, _⟩ => show j.val = 0 + j.val; omega
    | ⟨1, _⟩ => show d.val + 1 = 1 + d.val; omega)

/-- The scalar the one-entry time array is reshaped to is that entry. -/
theorem scalar_read (t : FVec Ideal S1 .f32) (i : S_.Idx) : shapeCast S_ t shapeCasts_S1_S_ i = t (ix1 0) := by
  unfold shapeCast
  refine congrArg t (funext fun a => Fin.ext ?_)
  match a with
  | ⟨0, _⟩ => exact Fin.val_eq_zero _

/-- The bias with the time column folded in, laid out as one row: entry `(0, j)` is `b[j] + t · W[j, 0]`. -/
theorem vecOf_folded (t : FVec Ideal S1 .f32) (W : FVec Ideal S64x65 .f32) (b : FVec Ideal S64 .f32) :
    Cert.Mlp.vecOf (shapeCast S1x64 (addf b (mulf (broadcastInDim S64 ![] bcast_S_S64 (shapeCast S_ t shapeCasts_S1_S_))
        (shapeCast S64 (extractStridedSlice S64x1 ![0, 0] W slices_S64x65_S64x1_0_0) shapeCasts_S64x1_S64))) shapeCasts_S64_S1x64)
      = Cert.Mlp.effb (Cert.Mlp.time t) W b := by
  funext j
  show shapeCast S1x64 _ shapeCasts_S64_S1x64 (ix2 (0 : Fin 1) j) = b (ix1 j) + t (ix1 0) * W (ix2 j 0)
  refine (shapeCast_apply _ shapeCasts_S64_S1x64 (ix2 (0 : Fin 1) j) (ix1 j) ?_).trans ?_
  · rw [Shape.rowMajor_val_one, Shape.rowMajor_val_two]; show j.val = 0 * 64 + j.val; omega
  show b (ix1 j) + broadcastInDim S64 ![] bcast_S_S64 (shapeCast S_ t shapeCasts_S1_S_) (ix1 j)
      * shapeCast S64 (extractStridedSlice S64x1 ![0, 0] W slices_S64x65_S64x1_0_0) shapeCasts_S64x1_S64 (ix1 j) = _
  have e1 : broadcastInDim S64 ![] bcast_S_S64 (shapeCast S_ t shapeCasts_S1_S_) (ix1 j) = t (ix1 0) :=
    (broadcastInDim_apply _ bcast_S_S64 _ (ix1 j) ix0 (fun a => a.elim0)).trans (scalar_read t ix0)
  have e2 : shapeCast S64 (extractStridedSlice S64x1 ![0, 0] W slices_S64x65_S64x1_0_0) shapeCasts_S64x1_S64 (ix1 j) = W (ix2 j 0) :=
    (shapeCast_apply _ shapeCasts_S64x1_S64 (ix1 j) (ix2 j (0 : Fin 1)) (by
      rw [Shape.rowMajor_val_one, Shape.rowMajor_val_two]; show j.val * 1 + 0 = j.val; omega)).trans
    (extractStridedSlice_apply _ W _ (ix2 j (0 : Fin 1)) (ix2 j 0) (fun a => by
      match a with
      | ⟨0, _⟩ => show j.val = 0 + j.val; omega
      | ⟨1, _⟩ => show 0 = 0 + 0; rfl))
  rw [e1, e2]

end Cert.KernelIdeal.HostWin

end
-- ==== Proof.Arrays.lean ====
/-
  From blocks to arrays: after the kernel's run each output array is the row function of `MlpRows` of the
  argument arrays, index by index.

  The grid has 64 points. At point `t` the `z`, cotangent and both output windows hold block `(t, 0)`: rows
  `4096·t … 4096·t + 4095`. The six small operands are staged whole at every point, block `(0, 0)`. So row `y`
  of what point `t` writes back is the row function on row `4096·t + y` of `z` (and of the cotangent), which is
  row `4096·t + y` of the whole-array function; and every row `r` of the array lies in point `r / 4096`'s block,
  so the blocks cover the array and it ends holding that function everywhere.
-/
import proofs.«126394_j31044023616347_1_alg».proof.Proof.Gen.KernelIdeal.Value
import proofs.«126394_j31044023616347_1_alg».proof.Proof.MlpRows
import proofs.«126394_j31044023616347_1_alg».proof.Proof.HostWin
import proofs.«126394_j31044023616347_1_alg».proof.Proof.KernelRows
import Idealize.ShloMosaic.Lib.Pipeline.Value
import Idealize.ShloMosaic.Lib.ValueIdx
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The two whole-array functions of this program's arguments -/

/-- The first output array as a function of the arguments. -/
abbrev Zd (c : Dev nD) : S262144x64.Idx → EReal :=
  Cert.Mlp.Zdot (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The second output array as a function of the arguments. -/
abbrev Nd (c : Dev nD) : S262144x1.Idx → EReal :=
  Cert.Mlp.NegDiv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## Where each window's block sits, decided over the 64 grid points -/

theorem hz : (![0, 0] : Fin 2 → Nat) = fun _ => 0 := funext fun a => by fin_cases a <;> rfl

/-- The row-blocked windows (`z`, the cotangent, both outputs) sit at block `(t, 0)`; the six small operands at `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The array row that row `y` of point `t`'s block is: `4096·t + y`. -/
def rowIx (t : Fin cfg0.N) (y : Fin 4096) : Fin 262144 :=
  ⟨t.val * 4096 + y.val, by have h : t.val < 64 := lt_of_lt_of_eq t.isLt N_0; have := y.isLt; omega⟩

/-! ## What the region finds in the six small operands -/

theorem V_v2 (c : Dev nD) : (V m c main_v2 : S64x64.Idx → EReal) = extractStridedSlice S64x64 ![0, 1] (m ((c : Thread nD τ).loc main_arg3)) slices_S64x65_S64x64_0_1 := by
  dsimp only [Gen.V, Gen.hostOps0]; after_results
theorem V_v5 (c : Dev nD) : (V m c main_v5 : S64x64.Idx → EReal) = extractStridedSlice S64x64 ![0, 1] (m ((c : Thread nD τ).loc main_arg5)) slices_S64x65_S64x64_0_1 := by
  dsimp only [Gen.V, Gen.hostOps0]; after_results
theorem V_v8 (c : Dev nD) : (V m c main_v8 : S64x64.Idx → EReal) = extractStridedSlice S64x64 ![0, 1] (m ((c : Thread nD τ).loc main_arg7)) slices_S64x65_S64x64_0_1 := by
  dsimp only [Gen.V, Gen.hostOps0]; after_results

/-- The folded bias as the program computes it, of a time array, a weight and a bias. -/
abbrev folded (t : FVec Ideal S1 .f32) (W : FVec Ideal S64x65 .f32) (b : FVec Ideal S64 .f32) : S1x64.Idx → EReal :=
  shapeCast S1x64 (addf b (mulf (broadcastInDim S64 ![] bcast_S_S64 (shapeCast S_ t shapeCasts_S1_S_))
    (shapeCast S64 (extractStridedSlice S64x1 ![0, 0] W slices_S64x65_S64x1_0_0) shapeCasts_S64x1_S64))) shapeCasts_S64_S1x64

set_option maxHeartbeats 1000000 in
theorem V_v13 (c : Dev nD) : (V m c main_v13 : S1x64.Idx → EReal) = folded (m ((c : Thread nD τ).loc main_arg0)) (m ((c : Thread nD τ).loc main_arg3)) (m ((c : Thread nD τ).loc main_arg4)) := by
  dsimp only [Gen.V, Gen.hostOps0]; after_results; rfl
set_option maxHeartbeats 1000000 in
theorem V_v17 (c : Dev nD) : (V m c main_v17 : S1x64.Idx → EReal) = folded (m ((c : Thread nD τ).loc main_arg0)) (m ((c : Thread nD τ).loc main_arg5)) (m ((c : Thread nD τ).loc main_arg6)) := by
  dsimp only [Gen.V, Gen.hostOps0]; after_results; rfl
set_option maxHeartbeats 1000000 in
theorem V_v21 (c : Dev nD) : (V m c main_v21 : S1x64.Idx → EReal) = folded (m ((c : Thread nD τ).loc main_arg0)) (m ((c : Thread nD τ).loc main_arg7)) (m ((c : Thread nD τ).loc main_arg8)) := by
  dsimp only [Gen.V, Gen.hostOps0]; after_results; rfl

/-! ## The blocks the body loads, named at their literal types -/

abbrev zblk (c : Dev nD) (t : Fin cfg0.N) : Vec Ideal S4096x64 .f32 := iblk m c 0 t
abbrev eblk (c : Dev nD) (t : Fin cfg0.N) : Vec Ideal S4096x64 .f32 := iblk m c 1 t
abbrev w0blk (c : Dev nD) (t : Fin cfg0.N) : Vec Ideal S64x64 .f32 := iblk m c 2 t
abbrev w1blk (c : Dev nD) (t : Fin cfg0.N) : Vec Ideal S64x64 .f32 := iblk m c 3 t
abbrev w2blk (c : Dev nD) (t : Fin cfg0.N) : Vec Ideal S64x64 .f32 := iblk m c 4 t
abbrev b0blk (c : Dev nD) (t : Fin cfg0.N) : Vec Ideal S1x64 .f32 := iblk m c 5 t
abbrev b1blk (c : Dev nD) (t : Fin cfg0.N) : Vec Ideal S1x64 .f32 := iblk m c 6 t
abbrev b2blk (c : Dev nD) (t : Fin cfg0.N) : Vec Ideal S1x64 .f32 := iblk m c 7 t

/-- A small operand's one block is its array: the block sits at `(0, 0)`. -/
theorem w0blk_eq (c : Dev nD) (t : Fin cfg0.N) : w0blk m c t = (V m c main_v2 : S64x64.Idx → EReal) := by
  funext y
  show V m c main_v2 (((cfg0.win 2).blk t).view.emb y) = V m c main_v2 y
  obtain ⟨-, -, ⟨e0, e1⟩, -⟩ := idx_facts t
  refine congrArg (V m c main_v2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem w1blk_eq (c : Dev nD) (t : Fin cfg0.N) : w1blk m c t = (V m c main_v5 : S64x64.Idx → EReal) := by
  funext y
  show V m c main_v5 (((cfg0.win 3).blk t).view.emb y) = V m c main_v5 y
  obtain ⟨-, -, -, ⟨e0, e1⟩, -⟩ := idx_facts t
  refine congrArg (V m c main_v5) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem w2blk_eq (c : Dev nD) (t : Fin cfg0.N) : w2blk m c t = (V m c main_v8 : S64x64.Idx → EReal) := by
  funext y
  show V m c main_v8 (((cfg0.win 4).blk t).view.emb y) = V m c main_v8 y
  obtain ⟨-, -, -, -, ⟨e0, e1⟩, -⟩ := idx_facts t
  refine congrArg (V m c main_v8) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem b0blk_eq (c : Dev nD) (t : Fin cfg0.N) : b0blk m c t = (V m c main_v13 : S1x64.Idx → EReal) := by
  funext y
  show V m c main_v13 (((cfg0.win 5).blk t).view.emb y) = V m c main_v13 y
  obtain ⟨-, -, -, -, -, ⟨e0, e1⟩, -⟩ := idx_facts t
  refine congrArg (V m c main_v13) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega
theorem b1blk_eq (c : Dev nD) (t : Fin cfg0.N) : b1blk m c t = (V m c main_v17 : S1x64.Idx → EReal) := by
  funext y
  show V m c main_v17 (((cfg0.win 6).blk t).view.emb y) = V m c main_v17 y
  obtain ⟨-, -, -, -, -, -, ⟨e0, e1⟩, -⟩ := idx_facts t
  refine congrArg (V m c main_v17) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega
theorem b2blk_eq (c : Dev nD) (t : Fin cfg0.N) : b2blk m c t = (V m c main_v21 : S1x64.Idx → EReal) := by
  funext y
  show V m c main_v21 (((cfg0.win 7).blk t).view.emb y) = V m c main_v21 y
  obtain ⟨-, -, -, -, -, -, -, ⟨e0, e1⟩, -⟩ := idx_facts t
  refine congrArg (V m c main_v21) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- The three weight blocks, read as matrices, are the weights without their time column. -/
theorem matOf_w0 (c : Dev nD) (t : Fin cfg0.N) : Cert.Mlp.matOf (w0blk m c t) = Cert.Mlp.hid (m ((c : Thread nD τ).loc main_arg3)) := by
  rw [w0blk_eq, V_v2]; exact HostWin.matOf_slice _
theorem matOf_w1 (c : Dev nD) (t : Fin cfg0.N) : Cert.Mlp.matOf (w1blk m c t) = Cert.Mlp.hid (m ((c : Thread nD τ).loc main_arg5)) := by
  rw [w1blk_eq, V_v5]; exact HostWin.matOf_slice _
theorem matOf_w2 (c : Dev nD) (t : Fin cfg0.N) : Cert.Mlp.matOf (w2blk m c t) = Cert.Mlp.hid (m ((c : Thread nD τ).loc main_arg7)) := by
  rw [w2blk_eq, V_v8]; exact HostWin.matOf_slice _

/-- The three bias blocks, read as rows, are the biases with the time column folded in. -/
theorem vecOf_b0 (c : Dev nD) (t : Fin cfg0.N) :
    Cert.Mlp.vecOf (b0blk m c t) = Cert.Mlp.effb (Cert.Mlp.time (m ((c : Thread nD τ).loc main_arg0))) (m ((c : Thread nD τ).loc main_arg3)) (m ((c : Thread nD τ).loc main_arg4)) := by
  rw [b0blk_eq, V_v13]; exact HostWin.vecOf_folded _ _ _
theorem vecOf_b1 (c : Dev nD) (t : Fin cfg0.N) :
    Cert.Mlp.vecOf (b1blk m c t) = Cert.Mlp.effb (Cert.Mlp.time (m ((c : Thread nD τ).loc main_arg0))) (m ((c : Thread nD τ).loc main_arg5)) (m ((c : Thread nD τ).loc main_arg6)) := by
  rw [b1blk_eq, V_v17]; exact HostWin.vecOf_folded _ _ _
theorem vecOf_b2 (c : Dev nD) (t : Fin cfg0.N) :
    Cert.Mlp.vecOf (b2blk m c t) = Cert.Mlp.effb (Cert.Mlp.time (m ((c : Thread nD τ).loc main_arg0))) (m ((c : Thread nD τ).loc main_arg7)) (m ((c : Thread nD τ).loc main_arg8)) := by
  rw [b2blk_eq, V_v21]; exact HostWin.vecOf_folded _ _ _

/-- Row `y` of point `t`'s `z` block is row `4096·t + y` of `z`. -/
theorem zrow (c : Dev nD) (t : Fin cfg0.N) (y : Fin 4096) :
    Cert.Mlp.blkRow (zblk m c t) y = Cert.Mlp.rowOf (m ((c : Thread nD τ).loc main_arg1)) (rowIx t y) := by
  funext d
  show V m c main_arg1 (((cfg0.win 0).blk t).view.emb (ix2 y d)) = (m ((c : Thread nD τ).loc main_arg1)) (ix2 (rowIx t y) d)
  rw [V_main_arg1]
  obtain ⟨⟨e0, e1⟩, -⟩ := idx_facts t
  refine congrArg _ (funext fun a => Fin.ext ?_)
  match a with
  | ⟨0, _⟩ => show win0_0.index t (0 : Fin 2) * 4096 + 1 * y.val = t.val * 4096 + y.val; omega
  | ⟨1, _⟩ => show win0_0.index t (1 : Fin 2) * 64 + 1 * d.val = d.val; omega

/-- Row `y` of point `t`'s cotangent block is row `4096·t + y` of the cotangent. -/
theorem erow (c : Dev nD) (t : Fin cfg0.N) (y : Fin 4096) :
    Cert.Mlp.blkRow (eblk m c t) y = Cert.Mlp.rowOf (m ((c : Thread nD τ).loc main_arg2)) (rowIx t y) := by
  funext d
  show V m c main_arg2 (((cfg0.win 1).blk t).view.emb (ix2 y d)) = (m ((c : Thread nD τ).loc main_arg2)) (ix2 (rowIx t y) d)
  rw [V_main_arg2]
  obtain ⟨-, ⟨e0, e1⟩, -⟩ := idx_facts t
  refine congrArg _ (funext fun a => Fin.ext ?_)
  match a with
  | ⟨0, _⟩ => show win0_1.index t (0 : Fin 2) * 4096 + 1 * y.val = t.val * 4096 + y.val; omega
  | ⟨1, _⟩ => show win0_1.index t (1 : Fin 2) * 64 + 1 * d.val = d.val; omega

/-! ## What each point writes back -/

/-- Where entry `(y, j)` of point `t`'s first output block lands: row `4096·t + y`, column `j`. -/
theorem emb8 (t : Fin cfg0.N) (y : Fin 4096) (j : Fin 64) :
    ((cfg0.win 8).blk t).view.emb (ix2 y j) = ix2 (rowIx t y) j := by
  obtain ⟨-, -, -, -, -, -, -, -, ⟨e0, e1⟩, -⟩ := idx_facts t
  refine funext fun a => Fin.ext ?_
  match a with
  | ⟨0, _⟩ => show win0_8.index t (0 : Fin 2) * 4096 + 1 * y.val = t.val * 4096 + y.val; omega
  | ⟨1, _⟩ => show win0_8.index t (1 : Fin 2) * 64 + 1 * j.val = j.val; omega

/-- Where entry `(y, 0)` of point `t`'s second output block lands: row `4096·t + y`, column `0`. -/
theorem emb9 (t : Fin cfg0.N) (y : Fin 4096) (k : Fin 1) :
    ((cfg0.win 9).blk t).view.emb (ix2 y k) = ix2 (rowIx t y) k := by
  obtain ⟨-, -, -, -, -, -, -, -, -, ⟨e0, e1⟩⟩ := idx_facts t
  refine funext fun a => Fin.ext ?_
  match a with
  | ⟨0, _⟩ => show win0_9.index t (0 : Fin 2) * 4096 + 1 * y.val = t.val * 4096 + y.val; omega
  | ⟨1, _⟩ => show win0_9.index t (1 : Fin 2) * 1 + 1 * k.val = k.val; omega

/-- Point `t` writes back block `t` of the first whole-array function. -/
theorem flushed8_eq (c : Dev nD) (t : Fin cfg0.N) :
    (dats m 0 c).flushed 8 t = ((cfg0.win 8).blk t).view.read (Elt Ideal) (Zd m c) := by
  rw [Value.flushed8]
  unfold out0_8
  rw [View.canon_unit_zero hz]
  simp only [View.ld_unit_zero (S := S4096x64) hz, View.ld_unit_zero (S := S64x64) hz, View.ld_unit_zero (S := S1x64) hz]
  funext i
  obtain ⟨y, j, rfl⟩ : ∃ (y : Fin 4096) (j : Fin 64), i = ix2 y j := ⟨i 0, i 1, eq_ix2 i⟩
  show k0_pay1 (F := Ideal) (k0_pay6 (b2blk m c t)) (k0_pay11 (zblk m c t) (w0blk m c t) (w1blk m c t) (b0blk m c t) (b1blk m c t))
      (k0_pay12 (w2blk m c t)) (ix2 y j) = Zd m c (((cfg0.win 8).blk t).view.emb (ix2 y j))
  rw [emb8]
  refine (Rows.pay_zdot (zblk m c t) (w0blk m c t) (w1blk m c t) (w2blk m c t) (b0blk m c t) (b1blk m c t) (b2blk m c t) y j).trans ?_
  rw [matOf_w0, matOf_w1, matOf_w2, vecOf_b0, vecOf_b1, vecOf_b2, zrow]
  rfl

/-- Point `t` writes back block `t` of the second whole-array function. -/
theorem flushed9_eq (c : Dev nD) (t : Fin cfg0.N) :
    (dats m 0 c).flushed 9 t = ((cfg0.win 9).blk t).view.read (Elt Ideal) (Nd m c) := by
  rw [Value.flushed9]
  unfold out0_9
  rw [View.canon_unit_zero hz]
  simp only [View.ld_unit_zero (S := S4096x64) hz, View.ld_unit_zero (S := S64x64) hz, View.ld_unit_zero (S := S1x64) hz]
  funext i
  obtain ⟨y, k, rfl⟩ : ∃ (y : Fin 4096) (k : Fin 1), i = ix2 y k := ⟨i 0, i 1, eq_ix2 i⟩
  have hk : k = 0 := Fin.ext (by have := k.isLt; omega)
  subst hk
  show k0_pay2 (F := Ideal) (eblk m c t) (k0_pay3 (w0blk m c t)) (k0_pay4 (w1blk m c t)) (k0_pay5 (w2blk m c t))
      (k0_pay8 (zblk m c t) (w0blk m c t) (b0blk m c t)) (k0_pay10 (zblk m c t) (w0blk m c t) (w1blk m c t) (b0blk m c t) (b1blk m c t))
      (ix2 y 0) = Nd m c (((cfg0.win 9).blk t).view.emb (ix2 y 0))
  rw [emb9]
  refine (Rows.pay_negdiv (zblk m c t) (eblk m c t) (w0blk m c t) (w1blk m c t) (w2blk m c t) (b0blk m c t) (b1blk m c t) y).trans ?_
  rw [matOf_w0, matOf_w1, matOf_w2, vecOf_b0, vecOf_b1, zrow, erow]
  rfl

/-! ## The blocks cover the arrays -/

/-- An index of the first output array is in point `t`'s block iff each coordinate is in the block's range. -/
theorem mem_blk8 (t : Fin cfg0.N) (i : S262144x64.Idx) :
    i ∈ ((cfg0.win 8).blk t).view.set ↔ ∀ a : Fin 2, win0_8.index t a * S4096x64.size a ≤ (i a).val ∧ (i a).val < win0_8.index t a * S4096x64.size a + S4096x64.size a := by
  show i ∈ ((View.whole main_v22_0).slice (win0_8.rect t)).set ↔ _
  rw [View.set_slice_whole, Rect.mem_set_unit]
  exact Iff.rfl

theorem mem_blk9 (t : Fin cfg0.N) (i : S262144x1.Idx) :
    i ∈ ((cfg0.win 9).blk t).view.set ↔ ∀ a : Fin 2, win0_9.index t a * S4096x1.size a ≤ (i a).val ∧ (i a).val < win0_9.index t a * S4096x1.size a + S4096x1.size a := by
  show i ∈ ((View.whole main_v22_1).slice (win0_9.rect t)).set ↔ _
  rw [View.set_slice_whole, Rect.mem_set_unit]
  exact Iff.rfl

/-- Row `r` lies in point `r / 4096`'s block. -/
theorem cover8 (c : Dev nD) (i : S262144x64.Idx) :
    ∃ t : Fin cfg0.N, (cfg0.win 8).flush t = true ∧ i ∈ ((cfg0.win 8).blk t).view.set := by
  have hi0 : (i 0).val < 262144 := (i 0).isLt
  have hi1 : (i 1).val < 64 := (i 1).isLt
  have ht : (i 0).val / 4096 < cfg0.N := lt_of_lt_of_eq (by omega : (i 0).val / 4096 < 64) N_0.symm
  obtain ⟨-, -, -, -, -, -, -, -, ⟨e0, e1⟩, -⟩ := idx_facts ⟨(i 0).val / 4096, ht⟩
  refine ⟨⟨(i 0).val / 4096, ht⟩, flush0_8 _, ?_⟩
  rw [mem_blk8]
  intro a
  match a with
  | ⟨0, _⟩ =>
    show win0_8.index ⟨(i 0).val / 4096, ht⟩ (0 : Fin 2) * 4096 ≤ (i 0).val ∧ (i 0).val < win0_8.index ⟨(i 0).val / 4096, ht⟩ (0 : Fin 2) * 4096 + 4096
    have e0' : win0_8.index ⟨(i 0).val / 4096, ht⟩ (0 : Fin 2) = (i 0).val / 4096 := e0
    omega
  | ⟨1, _⟩ =>
    show win0_8.index ⟨(i 0).val / 4096, ht⟩ (1 : Fin 2) * 64 ≤ (i 1).val ∧ (i 1).val < win0_8.index ⟨(i 0).val / 4096, ht⟩ (1 : Fin 2) * 64 + 64
    omega

theorem cover9 (c : Dev nD) (i : S262144x1.Idx) :
    ∃ t : Fin cfg0.N, (cfg0.win 9).flush t = true ∧ i ∈ ((cfg0.win 9).blk t).view.set := by
  have hi0 : (i 0).val < 262144 := (i 0).isLt
  have hi1 : (i 1).val < 1 := (i 1).isLt
  have ht : (i 0).val / 4096 < cfg0.N := lt_of_lt_of_eq (by omega : (i 0).val / 4096 < 64) N_0.symm
  obtain ⟨-, -, -, -, -, -, -, -, -, ⟨e0, e1⟩⟩ := idx_facts ⟨(i 0).val / 4096, ht⟩
  refine ⟨⟨(i 0).val / 4096, ht⟩, flush0_9 _, ?_⟩
  rw [mem_blk9]
  intro a
  match a with
  | ⟨0, _⟩ =>
    show win0_9.index ⟨(i 0).val / 4096, ht⟩ (0 : Fin 2) * 4096 ≤ (i 0).val ∧ (i 0).val < win0_9.index ⟨(i 0).val / 4096, ht⟩ (0 : Fin 2) * 4096 + 4096
    have e0' : win0_9.index ⟨(i 0).val / 4096, ht⟩ (0 : Fin 2) = (i 0).val / 4096 := e0
    omega
  | ⟨1, _⟩ =>
    show win0_9.index ⟨(i 0).val / 4096, ht⟩ (1 : Fin 2) * 1 ≤ (i 1).val ∧ (i 1).val < win0_9.index ⟨(i 0).val / 4096, ht⟩ (1 : Fin 2) * 1 + 1
    omega

/-- The first output array after the run. -/
theorem final8 (c : Dev nD) : (dats m 0 c).arrAt 8 cfg0.N = Zd m c :=
  (dats m 0 c).arrAt_eq_of_cover 8 (Zd m c) (fun t _ => flushed8_eq m c t) (cover8 c)

/-- The second output array after the run. -/
theorem final9 (c : Dev nD) : (dats m 0 c).arrAt 9 cfg0.N = Nd m c :=
  (dats m 0 c).arrAt_eq_of_cover 9 (Nd m c) (fun t _ => flushed9_eq m c t) (cover9 c)

/-! ## The run, read -/

/-- Every weakly fair execution of the kernel's program terminates with the two output arrays at the two
    whole-array functions of the arguments, the arguments unchanged. -/
theorem run : θ_run defs (onTc (τ := τ) (main (F := Ideal))) ⟨m, fun _ => 0, ρ⟩ fun r => ∀ c : Dev nD,
      r.2.mem ((c : Thread nD τ).loc main_v22_0) = Zd m c
      ∧ r.2.mem ((c : Thread nD τ).loc main_v22_1) = Nd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c), (h c).2.2⟩)
    (Value.run_blocks m ρ)

end Cert.KernelIdeal.Arrays

end
-- ==== Proof.lean ====
/-
  A three-layer network with the time fed to every layer, and the contraction of a cotangent with the network's
  Jacobian: a tiled kernel against a plain reference, equal on the extended reals.

  Per row `x` of `z` and `e` of the cotangent, with `A_k j d = W_k[j, d+1]` and `β_k j = b_k[j] + t · W_k[j, 0]`:
      ż = A₂ max(A₁ max(A₀ x + β₀, 0) + β₁, 0) + β₂,
      −div = 0 − Σ_d (A₀ᵀ ([p₁ > 0] · A₁ᵀ ([p₂ > 0] · A₂ᵀ e)))_d · e_d      (p₁, p₂ the two pre-activations).
  The kernel computes the folded biases `β_k` and the trimmed weights `A_k` before its one region, then at each of 64
  grid points takes 4096 rows through six 64-wide contractions; its two stored values at an entry are the two row
  functions of the loaded blocks (`KernelRows`), the blocks are the arguments' rows and the precomputed operands
  (`HostWin`, `Arrays`), and the output blocks tile the arrays, so each array ends at the whole-array function (`Arrays`).
  The reference prepends `t` to the row and contracts 65 terms against the whole weight, then pulls the cotangent back
  through the transposed weights and drops the time column; its two results are the same two functions (`RefRows`).
  What joins the arrangements (`MlpRows`): a sum over 65 terms is its first term plus the other 64, addition of extended
  reals commutes and associates at the infinities too, and `0 − s = −(0 + s)`. The masks compare the same
  pre-activation with zero on both sides, and a change of float format is the identity, so nothing uses the inputs'
  finiteness. No operation of the kernel is rewritten by the idealization, so that conjunct is trivial.
-/
import proofs.«126394_j31044023616347_1_alg».proof.Defs
import proofs.«126394_j31044023616347_1_alg».proof.Proof.Gen.Kernel
import proofs.«126394_j31044023616347_1_alg».proof.Proof.Gen.Kernel.Skeleton
import proofs.«126394_j31044023616347_1_alg».proof.Proof.Gen.Kernel.Launch
import proofs.«126394_j31044023616347_1_alg».proof.Proof.Gen.Kernel.Points
import proofs.«126394_j31044023616347_1_alg».proof.Proof.Gen.Kernel.Frame
import proofs.«126394_j31044023616347_1_alg».proof.Proof.Gen.KernelIdeal
import proofs.«126394_j31044023616347_1_alg».proof.Proof.Gen.KernelIdeal.Skeleton
import proofs.«126394_j31044023616347_1_alg».proof.Proof.Gen.KernelIdeal.Launch
import proofs.«126394_j31044023616347_1_alg».proof.Proof.Gen.KernelIdeal.Points
import proofs.«126394_j31044023616347_1_alg».proof.Proof.Gen.KernelIdeal.Frame
import proofs.«126394_j31044023616347_1_alg».proof.Proof.Gen.ReferenceIdeal
import proofs.«126394_j31044023616347_1_alg».proof.Proof.Gen.Pre_finite_inputs
import proofs.«126394_j31044023616347_1_alg».proof.Proof.Gen.KernelIdeal.Value
import proofs.«126394_j31044023616347_1_alg».proof.Proof.Gen.ReferenceIdeal.Run
import proofs.«126394_j31044023616347_1_alg».proof.Proof.Gen.ReferenceIdeal.Read
import proofs.«126394_j31044023616347_1_alg».proof.Proof.MlpRows
import proofs.«126394_j31044023616347_1_alg».proof.Proof.RefRows
import proofs.«126394_j31044023616347_1_alg».proof.Proof.KernelRows
import proofs.«126394_j31044023616347_1_alg».proof.Proof.HostWin
import proofs.«126394_j31044023616347_1_alg».proof.Proof.Arrays
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, both programs end with the first result at `Zdot` and the second at `NegDiv` of
    the kernel's arguments. -/
theorem algebraic : Cert.algebraic_KernelIdeal_ReferenceIdeal := by
  intro m ρ m' ρ' _ hagree
  refine ⟨fun c => Cert.KernelIdeal.Arrays.Zd m c, fun c => Cert.KernelIdeal.Arrays.Nd m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v30_eq, Cert.ReferenceIdeal.RefRows.zdot_eq, h0, h1, h3, h4, h5, h6, h7, h8]
  · obtain ⟨h0, h1, h2, h3, h4, h5, h6, h7, h8⟩ := hagree c
    rw [Cert.ReferenceIdeal.Read.val_main_v47_eq, Cert.ReferenceIdeal.RefRows.negdiv_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
